-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S256x4096 : Shape := ⟨2, ![256, 4096]⟩
abbrev S4096x256 : Shape := ⟨2, ![4096, 256]⟩
abbrev S256 : Shape := ⟨1, ![256]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S256x4096 : S_.BroadcastsInDim S256x4096 (![] : Fin 0 → Fin S256x4096.rank)
  reducesTo_S256x4096_S_d0_1 : S256x4096.ReducesTo [0, 1] S_
  bcast_S_S4096x256 : S_.BroadcastsInDim S4096x256 (![] : Fin 0 → Fin S4096x256.rank)
  reducesTo_S4096x256_S_d0_1 : S4096x256.ReducesTo [0, 1] S_
  bcast_S_S256 : S_.BroadcastsInDim S256 (![] : Fin 0 → Fin S256.rank)
  reducesTo_S256_S_d0 : S256.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x2048x4096 .f32) (main_arg1 : FVec F S256x4096 .f32) (main_arg2 : FVec F S4096x256 .f32) (main_arg3 : FVec F S256 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S256x4096 .f32 := Host.absf main_arg1
  let main_cst_0 : FVec F S_ .f32 := constant S_ .f32 0x7F800000#32
  let main_v5 : FVec F S256x4096 .f32 := broadcastInDim S256x4096 ![] bcast_S_S256x4096 main_cst_0
  let main_v6 : IVec S256x4096 1 := cmpf .olt main_v4 main_v5
  let main_c_1 : IVec S_ 1 := constantI S_ 1 1#1
  let main_v7 : IVec S_ 1 := (fun x v => Host.reduce IntOp.andi x v reducesTo_S256x4096_S_d0_1 h_S_) main_v6 main_c_1
  let main_v8 : IVec S_ 1 := andi main_v3 main_v7
  let main_v9 : FVec F S4096x256 .f32 := Host.absf main_arg2
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_v13 main_v16
-- ==== Kernel.lean ====
abbrev S4x2048x4096 : Shape := ⟨3, ![4, 2048, 4096]⟩
abbrev S256x4096 : Shape := ⟨2, ![256, 4096]⟩
abbrev S4096x256 : Shape := ⟨2, ![4096, 256]⟩
abbrev S256 : Shape := ⟨1, ![256]⟩
abbrev S4096 : Shape := ⟨1, ![4096]⟩
abbrev S8192x4096 : Shape := ⟨2, ![8192, 4096]⟩
abbrev S256x1 : Shape := ⟨2, ![256, 1]⟩
abbrev S1x4096 : Shape := ⟨2, ![1, 4096]⟩
abbrev S256x256 : Shape := ⟨2, ![256, 256]⟩

abbrev nBuf : Space → Nat
  | .hbm => 16
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S256x4096, .f32⟩
  | .hbm, ⟨2, _⟩ => ⟨S4096x256, .f32⟩
  | .hbm, ⟨3, _⟩ => ⟨S256, .f32⟩
  | .hbm, ⟨4, _⟩ => ⟨S4096, .f32⟩
  | .hbm, ⟨5, _⟩ => ⟨S8192x4096, .f32⟩
  | .hbm, ⟨6, _⟩ => ⟨S256x1, .f32⟩
  | .hbm, ⟨7, _⟩ => ⟨S256x4096, .f32⟩
  | .hbm, ⟨8, _⟩ => ⟨S256x4096, .f32⟩
  | .hbm, ⟨9, _⟩ => ⟨S4096x256, .f32⟩
  | .hbm, ⟨10, _⟩ => ⟨S4096x256, .bf16⟩
  | .hbm, ⟨11, _⟩ => ⟨S256x4096, .f32⟩
  | .hbm, ⟨12, _⟩ => ⟨S256x4096, .bf16⟩
  | .hbm, ⟨13, _⟩ => ⟨S1x4096, .f32⟩
  | .hbm, ⟨14, _⟩ => ⟨S8192x4096, .f32⟩
  | .hbm, ⟨15, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S4096x256, .bf16⟩
  | .local _ .vmem, ⟨3, _⟩ => ⟨S256x4096, .bf16⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x2048x4096_S8192x4096 : S4x2048x4096.ShapeCasts S8192x4096
  bcast_S256_S256x1_0 : S256.BroadcastsInDim S256x1 (![0] : Fin 1 → Fin S256x1.rank)
  bcast_S256x1_S256x4096_0_1 : S256x1.BroadcastsInDim S256x4096 (![0, 1] : Fin 2 → Fin S256x4096.rank)
  transposes_S256x4096_S4096x256_1_0 : S256x4096.Transposes [1, 0] S4096x256
  bitsLt_bf16_f32 : FTy.bits .bf16 < FTy.bits .f32
  transposes_S4096x256_S256x4096_1_0 : S4096x256.Transposes [1, 0] S256x4096
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  shapeCasts_S8192x4096_S4x2048x4096 : S8192x4096.ShapeCasts S4x2048x4096
  dot_S256x4096_S4096x256_S256x256_1_0_0_1_n_n_wf : DotDims.WF S256x4096 S4096x256 S256x256 [1] [0] [0] [1] [] []
  dot_S256x256_S256x4096_S256x4096_1_0_0_1_n_n_wf : DotDims.WF S256x256 S256x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .bf16 = 32 ∨ (Rect.block (s := S4096x256) S4096x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S256x4096.size a
  hwx0_2 : ∀ i : grid0.Coords, EltTy.bits .bf16 = 32 ∨ (Rect.block (s := S256x4096) S256x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S8192x4096.size a
  hwx0_4 : ∀ i : grid0.Coords, EltTy.bits .f32 = 32 ∨ (Rect.block (s := S8192x4096) S256x4096.size (cc0_transform_4 i) (hinb0_4 i)).WholeWords (EltTy.packing .f32)

variable [Facts₀]

def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S256x256_S256x4096_S256x4096_1_0_0_1_n_n : DotDims S256x256 S256x4096 S256x4096 where
  lhsContracting := [1]
  rhsContracting := [0]
  lhsNonContracting := [0]
  rhsNonContracting := [1]
  lhsBatch := []
  rhsBatch := []
  wf := dot_S256x256_S256x4096_S256x4096_1_0_0_1_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S256x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S256x4096 : Shape := ⟨2, ![256, 4096]⟩
abbrev S4096x256 : Shape := ⟨2, ![4096, 256]⟩
abbrev S256 : Shape := ⟨1, ![256]⟩
abbrev S4096 : Shape := ⟨1, ![4096]⟩
abbrev S256x1 : Shape := ⟨2, ![256, 1]⟩
abbrev S4096x4096 : Shape := ⟨2, ![4096, 4096]⟩
abbrev S4096x1 : Shape := ⟨2, ![4096, 1]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S256x4096, .f32⟩
  | .hbm, ⟨2, _⟩ => ⟨S4096x256, .f32⟩
  | .hbm, ⟨3, _⟩ => ⟨S256, .f32⟩
  | .hbm, ⟨4, _⟩ => ⟨S4096, .f32⟩
  | .hbm, ⟨5, _⟩ => ⟨S256x1, .f32⟩
  | .hbm, ⟨6, _⟩ => ⟨S256x4096, .f32⟩
  | .hbm, ⟨7, _⟩ => ⟨S256x4096, .f32⟩
  | .hbm, ⟨8, _⟩ => ⟨S4096x4096, .f32⟩
  | .hbm, ⟨9, _⟩ => ⟨S4096x1, .f32⟩
  | .hbm, ⟨10, _⟩ => ⟨S4096x4096, .f32⟩
  | .hbm, ⟨11, _⟩ => ⟨S4096x4096, .f32⟩
  | .hbm, ⟨12, _⟩ => ⟨S4x2048x4096, .f32⟩
  | .hbm, ⟨13, _⟩ => ⟨S_, .f32⟩
  | .hbm, ⟨14, _⟩ => ⟨S4x2048x4096, .f32⟩
  | .hbm, ⟨15, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S256_S256x1_0 : S256.BroadcastsInDim S256x1 (![0] : Fin 1 → Fin S256x1.rank)
  bcast_S256x1_S256x4096_0_1 : S256x1.BroadcastsInDim S256x4096 (![0, 1] : Fin 2 → Fin S256x4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S_S4x2048x4096 : S_.BroadcastsInDim S4x2048x4096 (![] : Fin 0 → Fin S4x2048x4096.rank)
  dot_S4096x256_S256x4096_S4096x4096_1_0_0_1_n_n_wf : DotDims.WF S4096x256 S256x4096 S4096x4096 [1] [0] [0] [1] [] []
  dot_S4x2048x4096_S4096x4096_S4x2048x4096_2_1_01_0_n_n_wf : DotDims.WF S4x2048x4096 S4096x4096 S4x2048x4096 [2] [1] [0, 1] [0] [] []

variable [Facts₀]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.LibPlainDot.lean ====
/-
  A plain two-dimensional matrix product read at an index.

  For the dimension numbers "rows × contraction times contraction × columns" (no batch axis) the operand indices at the
  output index (p, q) and contraction index k are (p, k) and (k, q); so at the extended reals a `tpu.matmul` into the
  zero accumulator and a host `dot_general` are both  Σ_k l(p, k) · r(k, q),  a finite sum over the contracted axis.
  A transposed operand reads its source at the swapped index.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable {M K N : Nat}

/-- The contraction shape of a plain product has one axis. -/
theorem plain_contr_rank : (DotDims.plain M K N).contr.rank = 1 := rfl
/-- Its extent is the shared dimension. -/
theorem plain_contr_size : (DotDims.plain M K N).contr.size ⟨0, by rw [plain_contr_rank]; exact Nat.one_pos⟩ = K := rfl

/-- The left operand's index at output (p, q) and contraction coordinate k is (p, k). -/
theorem plain_lhsIdx (j : (⟨2, ![M, N]⟩ : Shape).Idx) (k : Fin K) :
    (DotDims.plain M K N).lhsIdx j ((contrEquiv1 (DotDims.plain M K N) K plain_contr_rank plain_contr_size).symm k) = ix2 (j 0) k := by
  funext a
  refine Fin.ext ?_
  match a with
  | ⟨0, _⟩ => rfl
  | ⟨1, _⟩ =>
    exact ((DotDims.plain M K N).lhsIdx_val_of_single (cl := 1) rfl j _).trans
      (contrEquiv1_symm_val (DotDims.plain M K N) K plain_contr_rank plain_contr_size k)

/-- The right operand's index is (k, q). -/
theorem plain_rhsIdx (j : (⟨2, ![M, N]⟩ : Shape).Idx) (k : Fin K) :
    (DotDims.plain M K N).rhsIdx j ((contrEquiv1 (DotDims.plain M K N) K plain_contr_rank plain_contr_size).symm k) = ix2 k (j 1) := by
  funext a
  refine Fin.ext ?_
  match a with
  | ⟨0, _⟩ =>
    exact ((DotDims.plain M K N).rhsIdx_val_of_single (cr := 0) rfl j _).trans
      (contrEquiv1_symm_val (DotDims.plain M K N) K plain_contr_rank plain_contr_size k)
  | ⟨1, _⟩ => rfl

/-- The contraction sum of a plain product over its one coordinate. -/
theorem plain_sum (l : (⟨2, ![M, K]⟩ : Shape).Idx → EReal) (r : (⟨2, ![K, N]⟩ : Shape).Idx → EReal) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K plain_contr_rank plain_contr_size).symm]
  exact Finset.sum_congr rfl fun k _ =>
    congrArg₂ (· * ·) (congrArg l (plain_lhsIdx j k)) (congrArg r (plain_rhsIdx j k))

/-- A `tpu.matmul` with plain dimension numbers into the zero accumulator, at an index, whatever the operands' formats. -/
theorem matmul_plain_zero {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    FloatOps.matmul (DotDims.plain M K N) prec l r (constant ⟨2, ![M, N]⟩ .f32 0x00000000#32) j
      = ∑ k : Fin K, (l (ix2 (j 0) k) : EReal) * (r (ix2 k (j 1)) : EReal) := by
  rw [Ideal.matmul_constant_zero_apply]
  exact plain_sum l r j

/-- A host `dot_general` with plain dimension numbers, at an index. -/
theorem dotGeneral_plain {φ₁ φ₂ : FTy} (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral (DotDims.plain M K N) prec sched l r j
      = ∑ k : Fin K, (l (ix2 (j 0) k) : EReal) * (r (ix2 k (j 1)) : EReal) := by
  rw [Ideal.dotGeneral_apply]
  exact plain_sum l r j

/-! ## Layout reads the dense layers need -/

/-- A two-dimensional transpose reads its source at the swapped index. -/
theorem transpose2_apply {α : Type} {A B : Nat} (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) fun c => by
    match c with
    | ⟨0, _⟩ => rfl
    | ⟨1, _⟩ => rfl

/-- A vector recast as a one-row matrix and broadcast down the rows (a kernel's bias) reads, at (p, q), the vector at q. -/
theorem rowBroadcastTo_apply {α : Type} {R C : Nat} (v : (⟨1, ![C]⟩ : Shape).Idx → α)
    (h1 : (⟨1, ![C]⟩ : Shape).ShapeCasts ⟨2, ![1, C]⟩) (h2 : (⟨2, ![1, C]⟩ : Shape).Broadcasts ⟨2, ![R, C]⟩)
    (p : Fin R) (q : Fin C) :
    broadcastTo ⟨2, ![R, C]⟩ (shapeCast ⟨2, ![1, C]⟩ v h1) h2 (ix2 p q) = v (ix1 q) := by
  rw [broadcastTo_apply (shapeCast ⟨2, ![1, C]⟩ v h1) h2 (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact shapeCast_apply v h1 (ix2 (0 : Fin 1) q) (ix1 q) (by
    rw [Shape.rowMajor_val_one, Shape.rowMajor_val_two]
    show q.val = (0 : Nat) * C + q.val
    omega)

/-- The host's form of the same bias: a vector laid along the second axis by two `broadcast_in_dim`s reads, at (p, q), the vector at q. -/
theorem rowBroadcastInDim_apply {α : Type} {R C : Nat} (v : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 v) (ix2 p q) = v (ix1 q) := by
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact broadcastInDim_apply ![1] h1 v (ix2 (0 : Fin 1) q) (ix1 q) (fun a => by
    match a with
    | ⟨0, _⟩ =>
      show q.val = if C = 1 then 0 else q.val
      split
      · have := q.isLt; omega
      · rfl)

end Cert.LibPlainDot

end
-- ==== Proof.Spec.lean ====
/-
  The function both programs compute, in its two arrangements.

  A low-rank adapter: with x of shape [4, 2048, 4096], A of [256, 4096], B of [4096, 256], a[r] a scale per rank row
  and b[o] a scale per output column, and the constant s = 1/8,

    factored (b, t, o)  =  ((Σ_r (Σ_i x[b,t,i] · (A[r,i] · a[r])) · B[o,r]) · b[o]) · s      -- two thin products
    merged   (b, t, o)  =  (Σ_i x[b,t,i] · (b[o] · Σ_r B[o,r] · (a[r] · A[r,i]))) · s          -- one product with the merged weight

  Over the extended reals the two agree wherever every entry is a real number: the sums are finite, products
  distribute over them and the order of summation may be exchanged. (At an infinite entry distributivity fails.)
-/
import Idealize.ShloMosaic.PureOps.Ideal
import Idealize.ShloMosaic.Lib.ValueIdx

noncomputable section

namespace Cert.LowRank

open Idealize.ShloMosaic Idealize.ShloMosaic.ValueIdx

abbrev SX : Shape := ⟨3, ![4, 2048, 4096]⟩
abbrev SA : Shape := ⟨2, ![256, 4096]⟩
abbrev SB : Shape := ⟨2, ![4096, 256]⟩
abbrev Sa : Shape := ⟨1, ![256]⟩
abbrev Sb : Shape := ⟨1, ![4096]⟩

/-- The constant 1/8, as the word both programs carry. -/
def scale : EReal := Ideal.ofBits .f32 0x3E000000#32

/-- Through the rank axis first: x against the scaled A, then against B, then the column scale and the constant. -/
def factored (x : SX.Idx → EReal) (A : SA.Idx → EReal) (B : SB.Idx → EReal) (a : Sa.Idx → EReal) (b : Sb.Idx → EReal) :
    SX.Idx → EReal := fun j =>
  ((∑ r : Fin 256, (∑ i : Fin 4096, x (ix3 (j 0) (j 1) i) * (A (ix2 r i) * a (ix1 r))) * B (ix2 (j 2) r)) * b (ix1 (j 2))) * scale

/-- The merged weight first: W[o,i] = b[o] · Σ_r B[o,r] · (a[r] · A[r,i]), then x against it, then the constant. -/
def merged (x : SX.Idx → EReal) (A : SA.Idx → EReal) (B : SB.Idx → EReal) (a : Sa.Idx → EReal) (b : Sb.Idx → EReal) :
    SX.Idx → EReal := fun j =>
  (∑ i : Fin 4096, x (ix3 (j 0) (j 1) i) * (b (ix1 (j 2)) * ∑ r : Fin 256, B (ix2 (j 2) r) * (a (ix1 r) * A (ix2 r i)))) * scale

/-- Every entry of an array is a real number. -/
def AllReal {s : Shape} (v : s.Idx → EReal) : Prop := ∀ i, ∃ r : ℝ, v i = (r : EReal)

end Cert.LowRank

end
-- ==== Proof.Rows.lean ====
/-
  The result laid out as 8192 rows.

  The region works on x and on its result as matrices of 8192 rows, row g standing for (g / 2048, g % 2048). Laid out
  so, row g of the factored arrangement depends on row g of x only.
-/
import proofs.«121124_j28690381537981_1_alg».proof.Proof.Spec
import Idealize.ShloMosaic.Lib.Pipeline.Value

noncomputable section

namespace Cert.LowRank

open Idealize.ShloMosaic Idealize.ShloMosaic.ValueIdx

abbrev SR : Shape := ⟨2, ![8192, 4096]⟩

/-- Row g, column k of the 8192-row layout of a [4, 2048, 4096] array is its entry (g / 2048, g % 2048, k). -/
theorem rows_read {α : Type} (x : SX.Idx → α) (h : SX.ShapeCasts SR) (g : Fin 8192) (k : Fin 4096) :
    shapeCast SR x h (ix2 g k)
      = x (ix3 (⟨g.val / 2048, by have := g.isLt; omega⟩ : Fin 4) (⟨g.val % 2048, by omega⟩ : Fin 2048) k) :=
  shapeCast_apply x h (ix2 g k) _ (by
    rw [Shape.rowMajor_val_three, Shape.rowMajor_val_two]
    show (g.val / 2048 * 2048 + g.val % 2048) * 4096 + k.val = g.val * 4096 + k.val
    omega)

/-- The factored arrangement as 8192 rows. -/
def rowsOut (x : SX.Idx → EReal) (A : SA.Idx → EReal) (B : SB.Idx → EReal) (a : Sa.Idx → EReal) (b : Sb.Idx → EReal)
    (h : SX.ShapeCasts SR) : SR.Idx → EReal :=
  shapeCast SR (factored x A B a b) h

/-- Row g, column o of it, from row g of x. -/
theorem rowsOut_apply (x : SX.Idx → EReal) (A : SA.Idx → EReal) (B : SB.Idx → EReal) (a : Sa.Idx → EReal) (b : Sb.Idx → EReal)
    (h : SX.ShapeCasts SR) (g : Fin 8192) (o : Fin 4096) :
    rowsOut x A B a b h (ix2 g o)
      = ((∑ r : Fin 256, (∑ k : Fin 4096, shapeCast SR x h (ix2 g k) * (A (ix2 r k) * a (ix1 r))) * B (ix2 o r)) * b (ix1 o)) * scale := by
  simp only [rowsOut, rows_read, factored]

end Cert.LowRank

end
-- ==== Proof.Entry.lean ====
/-
  What the region finds in the four arrays it stages.

  Before the region the program lays x out as 8192 rows (row g = 2048·b + t), scales row r of A by a[r] and
  transposes it (entry (i, r) = A[r,i] · a[r]), transposes B (entry (r, o) = B[o,r]) and lays b out as one row;
  the two changes of float format are the identity on extended reals.
-/
import proofs.«121124_j28690381537981_1_alg».proof.Proof.Gen.KernelIdeal.Frame
import proofs.«121124_j28690381537981_1_alg».proof.Proof.LibPlainDot
import proofs.«121124_j28690381537981_1_alg».proof.Proof.Rows
import Idealize.ShloMosaic.Lib.Pipeline.Value
import Idealize.ShloMosaic.Lib.StableHlo.Run

noncomputable section

namespace Cert.LowRank

open Idealize.ShloMosaic Idealize.ShloMosaic.ValueIdx Idealize.ShloMosaic.TcCoe Idealize.SL.Sem Idealize.ShloMosaic.StableHlo
open Cert.KernelIdeal Cert.KernelIdeal.Gen

/-- A vector laid along the rows of a 256 × 4096 matrix (first as a column, then across) reads at (r, k) its entry r. -/
theorem colBroadcast_apply {α : Type} (v : S256.Idx → α) (r : Fin 256) (k : Fin 4096) :
    broadcastInDim S256x4096 ![0, 1] Facts₀.bcast_S256x1_S256x4096_0_1 (broadcastInDim S256x1 ![0] Facts₀.bcast_S256_S256x1_0 v) (ix2 r k)
      = v (ix1 r) := by
  rw [broadcastInDim_apply ![0, 1] Facts₀.bcast_S256x1_S256x4096_0_1 _ (ix2 r k) (ix2 r (0 : Fin 1)) (fun a => by
    match a with
    | ⟨0, _⟩ => show r.val = if (256 : Nat) = 1 then 0 else r.val; rw [if_neg (by decide)]
    | ⟨1, _⟩ => show (0 : Nat) = if (1 : Nat) = 1 then 0 else _; rw [if_pos rfl])]
  exact broadcastInDim_apply ![0] Facts₀.bcast_S256_S256x1_0 v (ix2 r (0 : Fin 1)) (ix1 r) (fun a => by
    match a with
    | ⟨0, _⟩ => show r.val = if (256 : Nat) = 1 then 0 else r.val; rw [if_neg (by decide)])

variable (m : (ℓ : Loc nD τ sig) → Buf (Elt Ideal) ℓ)

/-! The five arguments as launched, and the four staged arrays as the region finds them, each at its literal type. -/

abbrev argX (c : Dev nD) : SX.Idx → EReal := m ((c : Thread nD τ).loc main_arg0)
abbrev argA (c : Dev nD) : SA.Idx → EReal := m ((c : Thread nD τ).loc main_arg1)
abbrev argB (c : Dev nD) : SB.Idx → EReal := m ((c : Thread nD τ).loc main_arg2)
abbrev arga (c : Dev nD) : Sa.Idx → EReal := m ((c : Thread nD τ).loc main_arg3)
abbrev argb (c : Dev nD) : Sb.Idx → EReal := m ((c : Thread nD τ).loc main_arg4)
abbrev rowsIn (c : Dev nD) : SR.Idx → EReal := V m c main_v0
abbrev scaledT (c : Dev nD) : S4096x256.Idx → EReal := V m c main_v5
abbrev bT (c : Dev nD) : S256x4096.Idx → EReal := V m c main_v7
abbrev bRow (c : Dev nD) : S1x4096.Idx → EReal := V m c main_v8

/-- The x rows as the region finds them. -/
theorem entry_rows (c : Dev nD) :
    rowsIn m c = shapeCast SR (argX m c) Facts₀.shapeCasts_S4x2048x4096_S8192x4096 := by
  show StableHlo.after hostOps0 (fun b => m (c, b)) (Proc.devRef .tc main_v0) = _
  after_results
  rfl

/-- The scaled, transposed A. -/
theorem entry_scaledT (c : Dev nD) :
    scaledT m c
      = truncf (F := Ideal) .bf16 (transpose S4096x256 [1, 0] (mulf (F := Ideal) (φ := .f32) (argA m c)
          (broadcastInDim S256x4096 ![0, 1] Facts₀.bcast_S256x1_S256x4096_0_1
            (broadcastInDim S256x1 ![0] Facts₀.bcast_S256_S256x1_0 (arga m c))))
          Facts₀.transposes_S256x4096_S4096x256_1_0) Facts₀.bitsLt_bf16_f32 := by
  show StableHlo.after hostOps0 (fun b => m (c, b)) (Proc.devRef .tc main_v5) = _
  after_results

/-- The transposed B. -/
theorem entry_bT (c : Dev nD) :
    bT m c = truncf (F := Ideal) (φ := .f32) .bf16 (transpose S256x4096 [1, 0] (argB m c) Facts₀.transposes_S4096x256_S256x4096_1_0)
        Facts₀.bitsLt_bf16_f32 := by
  show StableHlo.after hostOps0 (fun b => m (c, b)) (Proc.devRef .tc main_v7) = _
  after_results

/-- The column scale as one row. -/
theorem entry_bRow (c : Dev nD) :
    bRow m c = shapeCast S1x4096 (argb m c) Facts₀.shapeCasts_S4096_S1x4096 := by
  show StableHlo.after hostOps0 (fun b => m (c, b)) (Proc.devRef .tc main_v8) = _
  after_results
  rfl

/-- Entry (i, r) of the scaled transpose is A[r,i] · a[r]. -/
theorem scaledT_apply (c : Dev nD) (i : Fin 4096) (r : Fin 256) :
    scaledT m c (ix2 i r) = argA m c (ix2 r i) * arga m c (ix1 r) := by
  rw [entry_scaledT, truncf_apply]
  refine (Cert.LibPlainDot.transpose2_apply (A := 256) (B := 4096) _ Facts₀.transposes_S256x4096_S4096x256_1_0 i r).trans ?_
  rw [mulf_apply, colBroadcast_apply]

/-- Entry (r, o) of the transposed B is B[o,r]. -/
theorem bT_apply (c : Dev nD) (r : Fin 256) (o : Fin 4096) : bT m c (ix2 r o) = argB m c (ix2 o r) := by
  rw [entry_bT, truncf_apply]
  exact Cert.LibPlainDot.transpose2_apply (A := 4096) (B := 256) _ Facts₀.transposes_S4096x256_S256x4096_1_0 r o

/-- Entry (0, o) of the one-row column scale is b[o]. -/
theorem bRow_apply (c : Dev nD) (o : Fin 4096) : bRow m c (ix2 (0 : Fin 1) o) = argb m c (ix1 o) := by
  rw [entry_bRow]
  exact shapeCast_apply _ Facts₀.shapeCasts_S4096_S1x4096 (ix2 (0 : Fin 1) o) (ix1 o) (by
    rw [Shape.rowMajor_val_one, Shape.rowMajor_val_two]
    show o.val = (0 : Nat) * 4096 + o.val
    omega)

end Cert.LowRank

end
-- ==== Proof.Block.lean ====
/-
  One grid point's work, read at an index.

  At a point the body holds a 256-row block of x (256 × 4096), the whole scaled transpose of A (4096 × 256), the whole
  transpose of B (256 × 4096) and the one-row column scale (1 × 4096). It multiplies the x block into the first
  (a 256 × 256 intermediate), that into the second, then scales each column and multiplies by the constant. Both
  products start from a zero accumulator, so each is the plain finite sum over the contracted axis; the changes of
  float format between them are the identity on extended reals.
-/
import proofs.«121124_j28690381537981_1_alg».proof.Proof.Gen.KernelIdeal.Skeleton
import proofs.«121124_j28690381537981_1_alg».proof.Proof.LibPlainDot
import proofs.«121124_j28690381537981_1_alg».proof.Proof.Spec
import Idealize.ShloMosaic.Lib.Pipeline.Value
import Idealize.ShloMosaic.PureOps.Ideal.Laws

noncomputable section

namespace Cert.LowRank

open Idealize.ShloMosaic Idealize.ShloMosaic.ValueIdx
open Cert.KernelIdeal Cert.KernelIdeal.Gen

/-- The one-row block, broadcast down the 256 rows, reads at (p, q) the row's entry q. -/
theorem rowBlock_apply {α : Type} (v : S1x4096.Idx → α) (p : Fin 256) (q : Fin 4096) :
    broadcastTo S256x4096 (shapeCast S1x4096 v Facts₀.shapeCasts_S1x4096_S1x4096) Facts₀.broadcasts_S1x4096_S256x4096 (ix2 p q)
      = v (ix2 (0 : Fin 1) q) := by
  rw [shapeCast_self]
  exact broadcastTo_apply v _ (ix2 p q) (ix2 (0 : Fin 1) q) (fun a => by
    match a with
    | ⟨0, _⟩ => show (0 : Nat) = if (1 : Nat) = 1 then 0 else _; rw [if_pos rfl]
    | ⟨1, _⟩ => show q.val = if (4096 : Nat) = 1 then 0 else q.val; rw [if_neg (by decide)])

/-- What the body stores at (p, q) of its output block, from the four blocks it loaded. -/
theorem pay_apply (x0 : Vec Ideal S256x4096 .f32) (x1 : Vec Ideal S4096x256 .bf16) (x2 : Vec Ideal S256x4096 .bf16)
    (x3 : Vec Ideal S1x4096 .f32) (p : Fin 256) (q : Fin 4096) :
    k0_pay1 (F := Ideal) x0 x1 x2 x3 (ix2 p q)
      = ((∑ r : Fin 256, (∑ k : Fin 4096, x0 (ix2 p k) * x1 (ix2 k r)) * x2 (ix2 r q)) * x3 (ix2 (0 : Fin 1) q)) * scale := by
  unfold k0_pay1
  rw [mulf_apply, mulf_apply, broadcast_apply, rowBlock_apply, shapeCast_self, shapeCast_self, shapeCast_self]
  show FloatOps.matmul (F := Ideal) (DotDims.plain 256 256 4096) none
        (truncf .bf16 (FloatOps.matmul (F := Ideal) (DotDims.plain 256 4096 256) none (truncf .bf16 x0 Facts₀.bitsLt_bf16_f32) x1
          (constant ⟨2, ![256, 256]⟩ .f32 0x00000000#32)) Facts₀.bitsLt_bf16_f32)
        x2 (constant ⟨2, ![256, 4096]⟩ .f32 0x00000000#32) (ix2 p q) * x3 (ix2 (0 : Fin 1) q) * scale = _
  rw [Cert.LibPlainDot.matmul_plain_zero]
  refine congrArg (fun z => z * x3 (ix2 (0 : Fin 1) q) * scale) (Finset.sum_congr rfl fun r _ => ?_)
  show FloatOps.matmul (F := Ideal) (DotDims.plain 256 4096 256) none (truncf .bf16 x0 Facts₀.bitsLt_bf16_f32) x1
        (constant ⟨2, ![256, 256]⟩ .f32 0x00000000#32) (ix2 p r) * x2 (ix2 r q) = _
  rw [Cert.LibPlainDot.matmul_plain_zero]
  rfl

end Cert.LowRank

end
-- ==== Proof.Flush.lean ====
/-
  From the blocks to the array.

  The grid has 32 points; point t stages rows 256·t … 256·t + 255 of the x rows and of the result, and the whole of the
  other three arrays. What it writes back is therefore rows 256·t … of the factored arrangement laid out as 8192 rows;
  the 32 blocks tile the result, so after the region the result array is that layout.
-/
import proofs.«121124_j28690381537981_1_alg».proof.Proof.Gen.KernelIdeal.Frame
import proofs.«121124_j28690381537981_1_alg».proof.Proof.Entry
import proofs.«121124_j28690381537981_1_alg».proof.Proof.Block
import proofs.«121124_j28690381537981_1_alg».proof.Proof.Rows
import Idealize.ShloMosaic.Lib.Pipeline.Value

noncomputable section

namespace Cert.LowRank

open Idealize.ShloMosaic Idealize.ShloMosaic.ValueIdx Idealize.ShloMosaic.TcCoe Idealize.SL.Sem
open Idealize.ShloMosaic.Pipeline (Dat)
open Cert.KernelIdeal Cert.KernelIdeal.Gen

variable (m : (ℓ : Loc nD τ sig) → Buf (Elt Ideal) ℓ)

theorem zero_offsets : (![0, 0] : Fin 2 → Nat) = fun _ => 0 := funext fun a => by fin_cases a <;> rfl

/-- The index maps over the grid: the x rows and the result advance one block per point, the other three windows stay. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The result as 8192 rows, of the arguments as launched. -/
abbrev rowsResult (c : Dev nD) : SR.Idx → EReal :=
  rowsOut (argX m c) (argA m c) (argB m c) (arga m c) (argb m c) Facts₀.shapeCasts_S4x2048x4096_S8192x4096

/-- What point t writes back is block t of the 8192-row result. -/
theorem flushed_eq (c : Dev nD) (t : Fin cfg0.N) :
    (dats m 0 c).flushed 4 t = ((cfg0.win 4).blk t).view.read (Elt Ideal) (rowsResult m c) := by
  show (cfg0.win 4).cut (grid0.coords t) ((dats m 0 c).after 4 t) = _
  rw [after0_4]
  unfold out0_4
  rw [View.canon_unit_zero zero_offsets]
  simp only [View.ld_unit_zero (S := S256x4096) zero_offsets, View.ld_unit_zero (S := S4096x256) zero_offsets,
    View.ld_unit_zero (S := S1x4096) zero_offsets]
  obtain ⟨e00, e01, e10, e11, e20, e21, e30, e31, e40, e41⟩ := index_facts t
  have ht : t.val < 32 := lt_of_lt_of_eq t.isLt N_0
  funext j
  obtain ⟨p, q, rfl⟩ : ∃ (p : Fin 256) (q : Fin 4096), j = ix2 p q := ⟨j 0, j 1, eq_ix2 j⟩
  have hp : p.val < 256 := p.isLt
  show k0_pay1 (F := Ideal) (iblk m c 0 t) (iblk m c 1 t) (iblk m c 2 t) (iblk m c 3 t) (ix2 p q)
    = rowsResult m c (((cfg0.win 4).blk t).view.emb (ix2 p q))
  refine (pay_apply (iblk m c 0 t) (iblk m c 1 t) (iblk m c 2 t) (iblk m c 3 t) p q).trans ?_
  -- where the output block sits in the result
  have hout : ((cfg0.win 4).blk t).view.emb (ix2 p q) = ix2 (⟨t.val * 256 + p.val, by omega⟩ : Fin 8192) q := by
    funext a; apply Fin.ext
    match a with
    | ⟨0, _⟩ => show win0_4.index t (0 : Fin 2) * 256 + 1 * p.val = t.val * 256 + p.val; omega
    | ⟨1, _⟩ => show win0_4.index t (1 : Fin 2) * 4096 + 1 * q.val = q.val; omega
  rw [hout]
  refine Eq.trans ?_ (rowsOut_apply (argX m c) (argA m c) (argB m c) (arga m c) (argb m c) _ _ q).symm
  -- the four input blocks, read where they sit in their arrays
  have hx : ∀ k : Fin 4096, (iblk m c 0 t (ix2 p k) : EReal)
      = shapeCast SR (argX m c) Facts₀.shapeCasts_S4x2048x4096_S8192x4096 (ix2 (⟨t.val * 256 + p.val, by omega⟩ : Fin 8192) k) := fun k => by
    show rowsIn m c (((cfg0.win 0).blk t).view.emb (ix2 p k)) = _
    rw [entry_rows]
    refine congrArg _ (funext fun a => Fin.ext ?_)
    match a with
    | ⟨0, _⟩ => show win0_0.index t (0 : Fin 2) * 256 + 1 * p.val = t.val * 256 + p.val; omega
    | ⟨1, _⟩ => show win0_0.index t (1 : Fin 2) * 4096 + 1 * k.val = k.val; omega
  have h1 : ∀ (k : Fin 4096) (r : Fin 256), (iblk m c 1 t (ix2 k r) : EReal) = argA m c (ix2 r k) * arga m c (ix1 r) := fun k r => by
    show scaledT m c (((cfg0.win 1).blk t).view.emb (ix2 k r)) = _
    rw [← scaledT_apply]
    refine congrArg _ (funext fun a => Fin.ext ?_)
    match a with
    | ⟨0, _⟩ => show win0_1.index t (0 : Fin 2) * 4096 + 1 * k.val = k.val; omega
    | ⟨1, _⟩ => show win0_1.index t (1 : Fin 2) * 256 + 1 * r.val = r.val; omega
  have h2 : ∀ r : Fin 256, (iblk m c 2 t (ix2 r q) : EReal) = argB m c (ix2 q r) := fun r => by
    show bT m c (((cfg0.win 2).blk t).view.emb (ix2 r q)) = _
    rw [← bT_apply]
    refine congrArg _ (funext fun a => Fin.ext ?_)
    match a with
    | ⟨0, _⟩ => show win0_2.index t (0 : Fin 2) * 256 + 1 * r.val = r.val; omega
    | ⟨1, _⟩ => show win0_2.index t (1 : Fin 2) * 4096 + 1 * q.val = q.val; omega
  have h3 : (iblk m c 3 t (ix2 (0 : Fin 1) q) : EReal) = argb m c (ix1 q) := by
    show bRow m c (((cfg0.win 3).blk t).view.emb (ix2 (0 : Fin 1) q)) = _
    rw [← bRow_apply]
    refine congrArg _ (funext fun a => Fin.ext ?_)
    match a with
    | ⟨0, _⟩ => show win0_3.index t (0 : Fin 2) * 1 + 1 * 0 = 0; omega
    | ⟨1, _⟩ => show win0_3.index t (1 : Fin 2) * 4096 + 1 * q.val = q.val; omega
  refine congrArg (· * scale) ?_
  exact congrArg₂ (· * ·) (Finset.sum_congr rfl fun r _ => congrArg₂ (· * ·)
    (Finset.sum_congr rfl fun k _ => congrArg₂ (· * ·) (hx k) (h1 k r)) (h2 r)) h3

/-- An index of the result is in point t's block iff each coordinate is in the block's range on its axis. -/
theorem mem_block (t : Fin cfg0.N) (i : SR.Idx) :
    i ∈ ((cfg0.win 4).blk t).view.set ↔ ∀ a : Fin 2, win0_4.index t a * S256x4096.size a ≤ (i a).val
      ∧ (i a).val < win0_4.index t a * S256x4096.size a + S256x4096.size a := by
  show i ∈ ((View.whole main_v9).slice (win0_4.rect t)).set ↔ _
  rw [View.set_slice_whole, Rect.mem_set_unit]
  exact Iff.rfl

/-- Row g of the result is in the block of point g / 256. -/
theorem covered (i : SR.Idx) : ∃ t : Fin cfg0.N, (cfg0.win 4).flush t = true ∧ i ∈ ((cfg0.win 4).blk t).view.set := by
  have hi0 : (i 0).val < 8192 := (i 0).isLt
  have hi1 : (i 1).val < 4096 := (i 1).isLt
  obtain ⟨t, htv⟩ : ∃ t : Fin cfg0.N, t.val = (i 0).val / 256 :=
    ⟨⟨(i 0).val / 256, lt_of_lt_of_eq (by omega : (i 0).val / 256 < 32) N_0.symm⟩, rfl⟩
  obtain ⟨-, -, -, -, -, -, -, -, e40, e41⟩ := index_facts t
  refine ⟨t, flush0_4 t, ?_⟩
  rw [mem_block]
  intro a
  match a with
  | ⟨0, _⟩ =>
    show win0_4.index t (0 : Fin 2) * 256 ≤ (i 0).val ∧ (i 0).val < win0_4.index t (0 : Fin 2) * 256 + 256
    omega
  | ⟨1, _⟩ =>
    show win0_4.index t (1 : Fin 2) * 4096 ≤ (i 1).val ∧ (i 1).val < win0_4.index t (1 : Fin 2) * 4096 + 4096
    omega

/-- After the region the result array is the factored arrangement laid out as 8192 rows. -/
theorem final_rows (c : Dev nD) : (dats m 0 c).arrAt 4 cfg0.N = rowsResult m c :=
  (dats m 0 c).arrAt_eq_of_cover 4 (rowsResult m c) (fun t _ => flushed_eq m c t) covered

end Cert.LowRank

end
-- ==== Proof.KernelRun.lean ====
/-
  The idealized kernel's run, read.

  After the region the program lays the 8192-row result back out as [4, 2048, 4096]; laying an array out as rows and
  back is the identity, so the program's result is the factored arrangement of its five arguments, which it leaves
  unchanged.
-/
import proofs.«121124_j28690381537981_1_alg».proof.Proof.Flush
import Idealize.ShloMosaic.Lib.StableHlo.Run

noncomputable section

namespace Cert.LowRank

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The program's result buffer after the line that follows the region. -/
theorem result_eq (c : Dev nD) :
    (Pipeline.afterTail₀ cfgs (dats m) 0 (V0 m) [hostOps1] c main_v10 : SX.Idx → EReal)
      = factored (argX m c) (argA m c) (argB m c) (arga m c) (argb m c) := by
  unfold Pipeline.afterTail₀
  show StableHlo.after hostOps1 _ (Proc.devRef .tc main_v10) = _
  after_results
  have e : (Pipeline.withArrays (cfgs 0).spec c (V0 m c) (fun w => (dats m 0 c).arrAt w (cfgs 0).N) (Proc.devRef .tc main_v9) : SR.Idx → EReal)
      = rowsResult m c :=
    (Pipeline.withArrays_arr spec0 launch0.win.arr_inj c (V0 m c) (fun w => (dats m 0 c).arrAt w cfg0.N) 4).trans (final_rows m c)
  exact (congrArg (fun X : SR.Idx → EReal => shapeCast SX X Facts₀.shapeCasts_S8192x4096_S4x2048x4096) e).trans
    (shapeCast_shapeCast _ _ _)

/-- Every weakly fair execution of the idealized kernel program terminates with its result at the factored arrangement
    of its arguments, and the arguments as launched. -/
theorem kernel_run : θ_run defs (onTc (τ := τ) (main (F := Ideal))) ⟨m, fun _ => 0, ρ⟩ (fun r => ∀ c : Dev nD,
      r.2.mem ((c.tc : Thread nD τ).loc main_v10) = factored (argX m c) (argA m c) (argB m c) (arga m c) (argb m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v10 (Pipeline.mem_restRefs_of main_v10 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.LowRank

end
-- ==== Proof.RefValue.lean ====
/-
  The reference, read at an index, is the merged arrangement.

  The reference scales A's rows, multiplies B into it, scales the rows of that product by b — the merged weight
  W[o,i] = b[o] · Σ_r B[o,r] · (a[r] · A[r,i]) —, contracts x's last axis against W's second, and multiplies by the
  constant. Each layout step reads its operand at an index computed from the literal shapes; the two products are
  finite sums over the contracted axis.
-/
import proofs.«121124_j28690381537981_1_alg».proof.Proof.Gen.ReferenceIdeal.Read
import proofs.«121124_j28690381537981_1_alg».proof.Proof.Spec

noncomputable section

namespace Cert.LowRank

open Idealize.ShloMosaic Idealize.ShloMosaic.ValueIdx
open Cert.ReferenceIdeal Cert.ReferenceIdeal.Read

/-- The left operand of the outer product at (b, t, o) and contraction coordinate i is x at (b, t, i). -/
theorem outer_lidx (b' : Fin 4) (t : Fin 2048) (o i : Fin 4096) : lidx_main_v7 (ix3 b' t o) i = ix3 b' t i :=
  funext fun a => Fin.ext (by match a with | ⟨0, _⟩ => rfl | ⟨1, _⟩ => rfl | ⟨2, _⟩ => rfl)

/-- The right operand: row o of the merged weight, column i. -/
theorem outer_ridx (b' : Fin 4) (t : Fin 2048) (o i : Fin 4096) : ridx_main_v7 (ix3 b' t o) i = ix2 o i :=
  funext fun a => Fin.ext (by match a with | ⟨0, _⟩ => rfl | ⟨1, _⟩ => rfl)

/-- The row scale b, laid along the rows of the weight, read at (o, i). -/
theorem rowScale_idx (o i : Fin 4096) : idx_main_v4 (idx_main_v5 (ix2 o i)) = ix1 o :=
  funext fun a => Fin.ext (by match a with | ⟨0, _⟩ => rfl)

/-- The inner product's operands at (o, i) and contraction coordinate r. -/
theorem inner_lidx (o i : Fin 4096) (r : Fin 256) : lidx_main_v3 (ix2 o i) r = ix2 o r :=
  funext fun a => Fin.ext (by match a with | ⟨0, _⟩ => rfl | ⟨1, _⟩ => rfl)
theorem inner_ridx (o i : Fin 4096) (r : Fin 256) : ridx_main_v3 (ix2 o i) r = ix2 r i :=
  funext fun a => Fin.ext (by match a with | ⟨0, _⟩ => rfl | ⟨1, _⟩ => rfl)

/-- The rank scale a, laid along the rows of A, read at (r, i). -/
theorem rankScale_idx (r : Fin 256) (i : Fin 4096) : idx_main_v0 (idx_main_v1 (ix2 r i)) = ix1 r :=
  funext fun a => Fin.ext (by match a with | ⟨0, _⟩ => rfl)

/-- The merged weight at (o, i). -/
theorem weight_apply (A : SA.Idx → EReal) (B : SB.Idx → EReal) (a : Sa.Idx → EReal) (b : Sb.Idx → EReal) (o i : Fin 4096) :
    val_main_v6 (F := Ideal) A B a b (ix2 o i) = b (ix1 o) * ∑ r : Fin 256, B (ix2 o r) * (a (ix1 r) * A (ix2 r i)) := by
  rw [val_main_v6_apply (F := Ideal), val_main_v5_apply (F := Ideal), val_main_v4_apply (F := Ideal), rowScale_idx, val_main_v3_apply]
  refine congrArg (fun z => b (ix1 o) * z) (Finset.sum_congr rfl fun r _ => ?_)
  rw [inner_lidx, inner_ridx, val_main_v2_apply (F := Ideal), val_main_v1_apply (F := Ideal), val_main_v0_apply (F := Ideal), rankScale_idx]
  rfl

/-- The reference's result array, as a function of its five arguments, is `merged`. -/
theorem reference_eq_merged (x : SX.Idx → EReal) (A : SA.Idx → EReal) (B : SB.Idx → EReal) (a : Sa.Idx → EReal) (b : Sb.Idx → EReal) :
    val_main_v9 (F := Ideal) x A B a b = merged x A B a b := by
  funext j
  obtain ⟨b', t, o, rfl⟩ : ∃ (b' : Fin 4) (t : Fin 2048) (o : Fin 4096), j = ix3 b' t o := ⟨j 0, j 1, j 2, eq_ix3 j⟩
  rw [val_main_v9_apply (F := Ideal), val_main_v7_apply, val_main_v8_apply (F := Ideal), val_main_cst_apply (F := Ideal)]
  show (∑ i : Fin 4096, _) * Ideal.ofBits .f32 0x3E000000#32
    = (∑ i : Fin 4096, x (ix3 b' t i) * (b (ix1 o) * ∑ r : Fin 256, B (ix2 o r) * (a (ix1 r) * A (ix2 r i)))) * scale
  refine congrArg (· * Ideal.ofBits .f32 0x3E000000#32) (Finset.sum_congr rfl fun i _ => ?_)
  rw [outer_lidx, outer_ridx, weight_apply]

end Cert.LowRank

end
-- ==== Proof.Algebra.lean ====
/-
  The algebraic law joining the two arrangements of the low-rank adapter.

  With every entry a real number, both arrangements are the image in the extended reals of one real expression:
  products distribute over the finite sums and the two summations may be exchanged,

    Σ_i x_i · (b · Σ_r B_r · (a_r · A_ri))  =  (Σ_r (Σ_i x_i · (A_ri · a_r)) · B_r) · b.

  The common factor 1/8 multiplies both sides and is left untouched.
-/
import proofs.«121124_j28690381537981_1_alg».proof.Proof.Spec
import Mathlib.Data.EReal.Basic
import Mathlib.Algebra.BigOperators.Ring.Finset
import Mathlib.Tactic.Ring

namespace Cert.LowRank

open Idealize.ShloMosaic Idealize.ShloMosaic.ValueIdx

/-- The inclusion of the reals in the extended reals commutes with finite sums. -/
theorem coe_finsum {ι : Type} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The real identity: distribute, exchange the two sums, and compare term by term. -/
theorem law_real {R I : Type} [Fintype R] [Fintype I] (x : I → ℝ) (A : R → I → ℝ) (a B : R → ℝ) (b : ℝ) :
    (∑ i, x i * (b * ∑ r, B r * (a r * A r i)))
      = (∑ r, (∑ i, x i * (A r i * a r)) * B r) * b := by
  simp only [Finset.mul_sum, Finset.sum_mul]
  rw [Finset.sum_comm]
  refine Finset.sum_congr rfl fun r _ => Finset.sum_congr rfl fun i _ => ?_
  ring

/-- The same identity in the extended reals, at real entries. -/
theorem law {R I : Type} [Fintype R] [Fintype I] (x : I → ℝ) (A : R → I → ℝ) (a B : R → ℝ) (b : ℝ) :
    (∑ i, (x i : EReal) * ((b : EReal) * ∑ r, (B r : EReal) * ((a r : EReal) * (A r i : EReal))))
      = (∑ r, (∑ i, (x i : EReal) * ((A r i : EReal) * (a r : EReal))) * (B r : EReal)) * (b : EReal) := by
  simp only [← EReal.coe_mul, ← coe_finsum]
  exact congrArg _ (law_real x A a B b)

theorem merged_eq_factored (x : SX.Idx → EReal) (A : SA.Idx → EReal) (B : SB.Idx → EReal) (a : Sa.Idx → EReal) (b : Sb.Idx → EReal)
    (hx : AllReal x) (hA : AllReal A) (hB : AllReal B) (ha : AllReal a) (hb : AllReal b) :
    merged x A B a b = factored x A B a b := by
  choose x' hx' using hx
  choose A' hA' using hA
  choose B' hB' using hB
  choose a' ha' using ha
  choose b' hb' using hb
  obtain rfl : x = fun i => ((x' i : ℝ) : EReal) := funext hx'
  obtain rfl : A = fun i => ((A' i : ℝ) : EReal) := funext hA'
  obtain rfl : B = fun i => ((B' i : ℝ) : EReal) := funext hB'
  obtain rfl : a = fun i => ((a' i : ℝ) : EReal) := funext ha'
  obtain rfl : b = fun i => ((b' i : ℝ) : EReal) := funext hb'
  funext j
  unfold merged factored
  exact congrArg (· * scale)
    (law (R := Fin 256) (I := Fin 4096) (fun i => x' (ix3 (j 0) (j 1) i)) (fun r i => A' (ix2 r i))
      (fun r => a' (ix1 r)) (fun r => B' (ix2 (j 2) r)) (b' (ix1 (j 2))))

end Cert.LowRank
-- ==== Proof.Finite.lean ====
/-
  From the precondition to "every entry of every input is a real number".

  The precondition says, for each of the five inputs, that |x| < +∞ at every entry, and takes the conjunction.
  Over the extended reals |x| = max x (-x), and max x (-x) < ⊤ excludes x = ⊤ and x = ⊥: the entry is a real.
-/
import proofs.«121124_j28690381537981_1_alg».proof.Pre_finite_inputs
import proofs.«121124_j28690381537981_1_alg».proof.Proof.Gen.Pre_finite_inputs
import proofs.«121124_j28690381537981_1_alg».proof.Proof.Spec
import Idealize.ShloMosaic.Lib.ReduceAll
import Idealize.ShloMosaic.PureOps.Ideal.Laws

noncomputable section

namespace Cert.LowRank

open Idealize.ShloMosaic

/-- The word 0x7F800000 denotes +∞. -/
theorem ofBits_inf : Ideal.ofBits .f32 0x7F800000#32 = (⊤ : EReal) := by
  simp [Ideal.ofBits, Ideal.ieee]

/-- An extended real whose absolute value max a (-a) lies below +∞ is a real number. -/
theorem real_of_abs_lt_top (a : EReal) (h : Ideal.cmp .olt (max a (-a)) ⊤ = 1#1) : ∃ r : ℝ, a = (r : EReal) := by
  induction a using EReal.rec with
  | bot => simp [Ideal.cmp] at h
  | coe r => exact ⟨r, rfl⟩
  | top => simp [Ideal.cmp] at h

/-- The rank-0 shape has one index. -/
instance subsingleton_scalarIdx : Subsingleton Cert.Pre_finite_inputs.S_.Idx :=
  ⟨fun a b => funext fun d => d.elim0⟩

/-- One input: if the conjunction over all entries of |x| < +∞ is 1, every entry of x is a real number. -/
theorem allReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
          (cmpf .olt (Host.absf x) (broadcastInDim s ![] hb (constant Cert.Pre_finite_inputs.S_ .f32 0x7F800000#32)))
          init hr hu j = 1#1) :
    AllReal x := by
  intro i
  have hi := Host.reduce_andi_all _ init hr hu j e i
  apply real_of_abs_lt_top
  simpa [cmpf, Host.absf, broadcastInDim, constant, Ideal.cmpf_def, Ideal.absf_def, ofBits_inf] using hi

theorem allReal_of_pre
    (x0 : FVec Ideal Cert.Pre_finite_inputs.S4x2048x4096 .f32) (x1 : FVec Ideal Cert.Pre_finite_inputs.S256x4096 .f32)
    (x2 : FVec Ideal Cert.Pre_finite_inputs.S4096x256 .f32) (x3 : FVec Ideal Cert.Pre_finite_inputs.S256 .f32)
    (x4 : FVec Ideal Cert.Pre_finite_inputs.S4096 .f32)
    (h : Cert.Pre_finite_inputs.fn (F := Ideal) x0 x1 x2 x3 x4 = fun _ => 1#1) :
    AllReal x0 ∧ AllReal x1 ∧ AllReal x2 ∧ AllReal x3 ∧ AllReal x4 := by
  have h0 := congrFun h ValueIdx.ix0
  dsimp only [Cert.Pre_finite_inputs.fn, Cert.Pre_finite_inputs.fn_part1] at h0
  simp only [andi, IntOp.andi_eq_one] at h0
  obtain ⟨⟨⟨⟨e0, e1⟩, e2⟩, e3⟩, e4⟩ := h0
  exact ⟨allReal_of_all x0 _ _ _ _ _ e0, allReal_of_all x1 _ _ _ _ _ e1, allReal_of_all x2 _ _ _ _ _ e2,
    allReal_of_all x3 _ _ _ _ _ e3, allReal_of_all x4 _ _ _ _ _ e4⟩

end Cert.LowRank

end
-- ==== Proof.lean ====
/-
  The certificate of the low-rank adapter kernel against its reference.

  Kernel: per block of 256 rows of x, two thin matrix products through the rank axis (x against the scaled transpose of
  A, then against the transpose of B), a column scale and the constant 1/8 — the factored arrangement
  ((Σ_r (Σ_i x·(A·a))·B)·b)·(1/8).  Reference: the merged weight W = b · (B (a·A)) first, then one product of x against it and
  the constant — the merged arrangement (Σ_i x·(b·Σ_r B·(a·A)))·(1/8).  On extended reals the two agree where every input
  entry is a real number, which is what the precondition says: products distribute over the finite sums and the two
  summations may be exchanged.

  The three frames: the kernel programs' are the generated frame certificates; the reference, which launches no
  kernel, has its generated run with the result dropped. The idealization rewrote no operation, so `preserves` has nothing to
  state. The algebraic claim sets the idealized kernel's run (its result array read block by block, then as one
  function of the arguments) beside the reference's run (read one operation at a time), both at the factored
  arrangement of arguments that agree.
-/
import proofs.«121124_j28690381537981_1_alg».proof.Defs
import proofs.«121124_j28690381537981_1_alg».proof.Proof.Gen.Kernel
import proofs.«121124_j28690381537981_1_alg».proof.Proof.Gen.Kernel.Skeleton
import proofs.«121124_j28690381537981_1_alg».proof.Proof.Gen.Kernel.Launch
import proofs.«121124_j28690381537981_1_alg».proof.Proof.Gen.Kernel.Points
import proofs.«121124_j28690381537981_1_alg».proof.Proof.Gen.Kernel.Frame
import proofs.«121124_j28690381537981_1_alg».proof.Proof.Gen.KernelIdeal
import proofs.«121124_j28690381537981_1_alg».proof.Proof.Gen.KernelIdeal.Skeleton
import proofs.«121124_j28690381537981_1_alg».proof.Proof.Gen.KernelIdeal.Launch
import proofs.«121124_j28690381537981_1_alg».proof.Proof.Gen.KernelIdeal.Points
import proofs.«121124_j28690381537981_1_alg».proof.Proof.Gen.KernelIdeal.Frame
import proofs.«121124_j28690381537981_1_alg».proof.Proof.Gen.ReferenceIdeal
import proofs.«121124_j28690381537981_1_alg».proof.Proof.Gen.Pre_finite_inputs
import proofs.«121124_j28690381537981_1_alg».proof.Proof.Gen.ReferenceIdeal.Run
import proofs.«121124_j28690381537981_1_alg».proof.Proof.Gen.ReferenceIdeal.Read
import proofs.«121124_j28690381537981_1_alg».proof.Proof.KernelRun
import proofs.«121124_j28690381537981_1_alg».proof.Proof.RefValue
import proofs.«121124_j28690381537981_1_alg».proof.Proof.Algebra
import proofs.«121124_j28690381537981_1_alg».proof.Proof.Finite
import Idealize.ShloMosaic.Adequacy
import Idealize.ShloMosaic.Init

noncomputable section

namespace Cert.Proof

open Idealize.ShloMosaic Idealize.SL.Sem Cert.LowRank

/-- The reference launches no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end at the factored arrangement of the kernel's arguments: the kernel by its run, the reference by
    its run read as the merged arrangement, equal to the factored one because the precondition makes every entry real. -/
theorem algebraic : Cert.algebraic_KernelIdeal_ReferenceIdeal := by
  intro m ρ m' ρ' hpre hagree
  refine ⟨fun c => factored (argX m c) (argA m c) (argB m c) (arga m c) (argb m c), kernel_run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4⟩ := hagree c
  obtain ⟨f0, f1, f2, f3, f4⟩ := allReal_of_pre _ _ _ _ _ (hpre c)
  rw [g0, g1, g2, g3, g4]
  refine (Cert.ReferenceIdeal.Read.val_main_v9_eq (F := Ideal) (argX m c) (argA m c) (argB m c) (arga m c) (argb m c)).trans ?_
  rw [reference_eq_merged]
  exact merged_eq_factored _ _ _ _ _ f0 f1 f2 f3 f4

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
